-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S1x2048x256 : Shape := ⟨3, ![1, 2048, 256]⟩
abbrev S1000x512 : Shape := ⟨2, ![1000, 512]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S1x2048x256 : S_.BroadcastsInDim S1x2048x256 (![] : Fin 0 → Fin S1x2048x256.rank)
  reducesTo_S1x2048x256_S_d0_1_2 : S1x2048x256.ReducesTo [0, 1, 2] S_
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S512x256 .f32) (main_arg1 : FVec F S1x2048x256 .f32) (main_arg2 : FVec F S1000x512 .f32) (main_arg3 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S1x2048x256 .f32 := Host.absf main_arg1
  let main_cst_0 : FVec F S_ .f32 := constant S_ .f32 0x7F800000#32
  let main_v5 : FVec F S1x2048x256 .f32 := broadcastInDim S1x2048x256 ![] bcast_S_S1x2048x256 main_cst_0
  let main_v6 : IVec S1x2048x256 1 := cmpf .olt main_v4 main_v5
  let main_c_1 : IVec S_ 1 := constantI S_ 1 1#1
  let main_v7 : IVec S_ 1 := (fun x v => Host.reduce IntOp.andi x v reducesTo_S1x2048x256_S_d0_1_2 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  main_v13
-- ==== Kernel.lean ====
abbrev S512x256 : Shape := ⟨2, ![512, 256]⟩
abbrev S1x2048x256 : Shape := ⟨3, ![1, 2048, 256]⟩
abbrev S1000x512 : Shape := ⟨2, ![1000, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S2048x256 : Shape := ⟨2, ![2048, 256]⟩
abbrev S512x2048 : Shape := ⟨2, ![512, 2048]⟩
abbrev S128x256 : Shape := ⟨2, ![128, 256]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S2048x1 : Shape := ⟨2, ![2048, 1]⟩

abbrev nBuf : Space → Nat
  | .hbm => 17
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S1x2048x256, .f32⟩
  | .hbm, ⟨2, _⟩ => ⟨S1000x512, .f32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x512, .f32⟩
  | .hbm, ⟨13, _⟩ => ⟨S512x256, .f32⟩
  | .hbm, ⟨14, _⟩ => ⟨S512x256, .f32⟩
  | .hbm, ⟨15, _⟩ => ⟨S2048x256, .f32⟩
  | .hbm, ⟨16, _⟩ => ⟨S512x2048, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S2048x256, .f32⟩
  | .local _ .vmem, ⟨7, _⟩ => ⟨S128x2048, .f32⟩
  | .local _ .vmem, ⟨8, _⟩ => ⟨S128x2048, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  slices_S512x512_S512x256_0_0 : S512x512.Slices ![0, 0] S512x256
  slices_S512x512_S512x256_0_256 : S512x512.Slices ![0, 256] S512x256
  shapeCasts_S1x2048x256_S2048x256 : S1x2048x256.ShapeCasts S2048x256
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  broadcasts_S128x1_S128x256 : S128x1.Broadcasts S128x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  shapeCasts_S128x256_S128x256 : S128x256.ShapeCasts S128x256
  bitsLt_bf16_f32 : FTy.bits .bf16 < FTy.bits .f32
  broadcasts_S128x1_S128x2048 : S128x1.Broadcasts S128x2048
  inb_S128x2048_S128x2048_0_0 : ∀ a, (![0, 0] : Fin 2 → Nat) a + S128x2048.size a ≤ S128x2048.size a
  h_S128x2048 : 0 < S128x2048.numel
  gather_S1000x512_S512x1_S512x512_1_0_n_n_0_1_1512_wf : GatherDims.WF S1000x512 S512x1 S512x512 [1] [0] [] [0] [] 1 ![1, 512]
  dot_S128x256_S2048x256_S128x2048_1_1_0_0_n_n_wf : DotDims.WF S128x256 S2048x256 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S512x256.size a
  hwx0_2 : ∀ i : grid0.Coords, EltTy.bits .f32 = 32 ∨ (Rect.block (s := S512x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .f32 = 32 ∨ (Rect.block (s := S2048x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S512x2048.size a
  hwx0_4 : ∀ i : grid0.Coords, EltTy.bits .f32 = 32 ∨ (Rect.block (s := S512x2048) S128x2048.size (cc0_transform_4 i) (hinb0_4 i)).WholeWords (EltTy.packing .f32)

variable [Facts₀]

def gather_S1000x512_S512x1_S512x512_1_0_n_n_0_1_1512 : GatherDims S1000x512 S512x1 S512x512 where
  offsetDims := [1]
  collapsedSliceDims := [0]
  operandBatchingDims := []
  startIndicesBatchingDims := []
  startIndexMap := [0]
  indexVectorDim := 1
  sliceSizes := ![1, 512]
  wf := gather_S1000x512_S512x1_S512x512_1_0_n_n_0_1_1512_wf
def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256 : Shape := ⟨2, ![512, 256]⟩
abbrev S1x2048x256 : Shape := ⟨3, ![1, 2048, 256]⟩
abbrev S1000x512 : Shape := ⟨2, ![1000, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S1x2048 : Shape := ⟨2, ![1, 2048]⟩
abbrev S1x2048x1 : Shape := ⟨3, ![1, 2048, 1]⟩
abbrev S512x1x256 : Shape := ⟨3, ![512, 1, 256]⟩
abbrev S512x2048x256 : Shape := ⟨3, ![512, 2048, 256]⟩
abbrev S512x2048 : Shape := ⟨2, ![512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1x2048x256, .f32⟩
  | .hbm, ⟨2, _⟩ => ⟨S1000x512, .f32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x512, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x256, .f32⟩
  | .hbm, ⟨24, _⟩ => ⟨S512x256, .f32⟩
  | .hbm, ⟨25, _⟩ => ⟨S1x2048x256, .f32⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S1x2048x256, .f32⟩
  | .hbm, ⟨34, _⟩ => ⟨S1x2048x256, .f32⟩
  | .hbm, ⟨35, _⟩ => ⟨S512x1x256, .f32⟩
  | .hbm, ⟨36, _⟩ => ⟨S512x2048x256, .f32⟩
  | .hbm, ⟨37, _⟩ => ⟨S512x2048x256, .f32⟩
  | .hbm, ⟨38, _⟩ => ⟨S512x2048x256, .f32⟩
  | .hbm, ⟨39, _⟩ => ⟨S512x256, .f32⟩
  | .hbm, ⟨40, _⟩ => ⟨S512x1x256, .f32⟩
  | .hbm, ⟨41, _⟩ => ⟨S512x2048x256, .f32⟩
  | .hbm, ⟨42, _⟩ => ⟨S512x2048x256, .f32⟩
  | .hbm, ⟨43, _⟩ => ⟨S512x2048x256, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S512x2048, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  slices_S512x512_S512x256_0_0 : S512x512.Slices ![0, 0] S512x256
  slices_S512x512_S512x256_0_256 : S512x512.Slices ![0, 256] S512x256
  reducesTo_S512x256_S512_d1 : S512x256.ReducesTo [1] S512
  h_S_ : 0 < S_.numel
  bcast_S_S512x1 : S_.BroadcastsInDim S512x1 (![] : Fin 0 → Fin S512x1.rank)
  bcast_S512x1_S512x256_0_1 : S512x1.BroadcastsInDim S512x256 (![0, 1] : Fin 2 → Fin S512x256.rank)
  reducesTo_S1x2048x256_S1x2048_d2 : S1x2048x256.ReducesTo [2] S1x2048
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x256_0_1_2 : S1x2048x1.BroadcastsInDim S1x2048x256 (![0, 1, 2] : Fin 3 → Fin S1x2048x256.rank)
  bcast_S512x256_S512x1x256_0_2 : S512x256.BroadcastsInDim S512x1x256 (![0, 2] : Fin 2 → Fin S512x1x256.rank)
  bcast_S1x2048x256_S512x2048x256_0_1_2 : S1x2048x256.BroadcastsInDim S512x2048x256 (![0, 1, 2] : Fin 3 → Fin S512x2048x256.rank)
  bcast_S512x1x256_S512x2048x256_0_1_2 : S512x1x256.BroadcastsInDim S512x2048x256 (![0, 1, 2] : Fin 3 → Fin S512x2048x256.rank)
  reducesTo_S512x2048x256_S512x2048_d2 : S512x2048x256.ReducesTo [2] S512x2048
  gather_S1000x512_S512x1_S512x512_1_0_n_n_0_1_1512_wf : GatherDims.WF S1000x512 S512x1 S512x512 [1] [0] [] [0] [] 1 ![1, 512]

variable [Facts₀]

def gather_S1000x512_S512x1_S512x512_1_0_n_n_0_1_1512 : GatherDims S1000x512 S512x1 S512x512 where
  offsetDims := [1]
  collapsedSliceDims := [0]
  operandBatchingDims := []
  startIndicesBatchingDims := []
  startIndexMap := [0]
  indexVectorDim := 1
  sliceSizes := ![1, 512]
  wf := gather_S1000x512_S512x1_S512x512_1_0_n_n_0_1_1512_wf

class Facts : Prop extends Facts₀ where

variable [Facts]
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.RealOps.lean ====
/-
  More of the ideal float instance on COERCED REALS, for a score built from row norms and a square root:
  the square root of a coerced non-negative real, subtraction from zero, and the two single-precision
  constants this score uses, as the reals they denote.
-/
import Idealize.ShloMosaic.PureOps.Ideal
import Idealize.ShloMosaic.PureOps.Ideal.Laws
import Mathlib.Data.EReal.Basic
import Mathlib.Data.EReal.Operations
import Mathlib.Analysis.SpecialFunctions.Sqrt
import Mathlib.Tactic.NormNum

noncomputable section

namespace Cert.PairRE

open Idealize.ShloMosaic

/-- The square root of a coerced NON-NEGATIVE real is the coerced real square root. -/
theorem sqrt_coe_nonneg {r : ℝ} (hr : 0 ≤ r) : Ideal.sqrt (r : EReal) = ((Real.sqrt r : ℝ) : EReal) := by
  rw [Ideal.sqrt_coe, if_neg (not_lt.mpr hr)]

/-- The single-precision number nearest `10⁻¹²`, exactly: exponent field 87, fraction `0x0CBCCC`, that is
    `(2²³ + 834764) · 2⁻⁶³ = 9223372 / 2⁶³`. -/
def epsR : ℝ := 9223372 / 9223372036854775808

/-- That number is positive. -/
theorem epsR_pos : 0 < epsR := by unfold epsR; norm_num

/-- The pattern `0x2B8CBCCC` denotes `epsR`. -/
theorem ofBits_eps : Ideal.ofBits .f32 0x2B8CBCCC#32 = ((epsR : ℝ) : EReal) := by
  unfold epsR
  simp [Ideal.ofBits, Ideal.ieee, -EReal.coe_mul]; norm_num

/-- The pattern of `2.0` (exponent field 128, fraction 0) denotes the real `2`. -/
theorem ofBits_two : Ideal.ofBits .f32 0x40000000#32 = ((2 : ℝ) : EReal) := by
  simp [Ideal.ofBits, Ideal.ieee, -EReal.coe_mul]; norm_num

/-- The pattern of `+0.0` denotes the real `0`. -/
theorem ofBits_zero : Ideal.ofBits .f32 0x00000000#32 = ((0 : ℝ) : EReal) := by
  rw [Ideal.ofBits_zero_f32, EReal.coe_zero]

end Cert.PairRE

end
-- ==== Proof.Score.lean ====
/-
  The score of one (head, tail) pair, as two expressions over the extended reals, and their equality on real rows.

  A row `x` of 256 numbers is normalised to `x / max(‖x‖₂, ε)`. With `u` the normalised tail row, `w` the normalised
  head row and `a`, `b` the two halves of the relation row, the score is `−‖u ∘ a − w ∘ b‖₂`:

    * `score` sums the squared differences coordinate by coordinate;
    * `kscore` expands the square first, `∑ a²u² − 2 ∑ (a·(w b))·u + ∑ (w b)²`, clamps the result at zero and
      writes the negation as a subtraction from zero.

  On rows of REAL numbers the two agree: the expansion is the binomial identity summed over the coordinates, a
  sum of squares is non-negative so the clamp does nothing, and `0 − s = −s`. On the extended reals the
  identity fails at infinities, which is why the rows are asked to be real.
-/
import proofs.«114035_j19370302505584_1_alg».proof.Proof.LibCoe
import proofs.«114035_j19370302505584_1_alg».proof.Proof.RealOps
import Mathlib.Algebra.BigOperators.Ring.Finset
import Mathlib.Algebra.Order.BigOperators.Ring.Finset
import Mathlib.Tactic.Ring

noncomputable section

namespace Cert.PairRE

open Idealize.ShloMosaic
open Finset BigOperators

variable {ι : Type} [Fintype ι]

/-- A row normalised by its Euclidean norm, the norm clamped from below at the constant `ε`. -/
def unitE (x : ι → EReal) (k : ι) : EReal :=
  Ideal.div (x k) (max (Ideal.sqrt (∑ e, x e * x e)) (Ideal.ofBits .f32 0x2B8CBCCC#32))

/-- The score summed coordinate by coordinate: `−√(∑ₖ (uₖ aₖ − wₖ bₖ)²)`. -/
def score (h t rh rt : ι → EReal) : EReal :=
  -(Ideal.sqrt (∑ k, (unitE t k * rt k - unitE h k * rh k) * (unitE t k * rt k - unitE h k * rh k)))

/-- The score with the square expanded: `0 − √(max(∑ a²u² − 2·∑ (a (w b)) u + ∑ (w b)², 0))`. -/
def kscore (h t rh rt : ι → EReal) : EReal :=
  Ideal.ofBits .f32 0x00000000#32
    - Ideal.sqrt (max
        ((∑ k, (rt k * rt k) * (unitE t k * unitE t k))
            - Ideal.ofBits .f32 0x40000000#32 * (∑ k, (rt k * (unitE h k * rh k)) * unitE t k)
          + ∑ k, (unitE h k * rh k) * (unitE h k * rh k))
        (Ideal.ofBits .f32 0x00000000#32))

/-- The real normalised row. -/
def unitR (x : ι → ℝ) (k : ι) : ℝ := x k / max (Real.sqrt (∑ e, x e * x e)) epsR

/-- A real row normalises to a real row: the clamped norm is at least `ε > 0`, so the quotient is a real one. -/
theorem unitE_coe (x : ι → ℝ) (k : ι) : unitE (fun e => (x e : EReal)) k = ((unitR x k : ℝ) : EReal) := by
  unfold unitE unitR
  simp only [LibCoe.mul_coe]
  rw [LibCoe.sum_coe, sqrt_coe_nonneg (Finset.sum_nonneg fun e _ => mul_self_nonneg (x e)), ofBits_eps, LibCoe.max_coe,
    LibCoe.div_coe_coe _ (ne_of_gt (lt_of_lt_of_le epsR_pos (le_max_right _ _)))]

/-- The binomial identity, summed: `∑ a²u² − 2 ∑ (a v) u + ∑ v² = ∑ (u a − v)²`. -/
theorem expand_sq (u a v : ι → ℝ) :
    (∑ k, (a k * a k) * (u k * u k)) - 2 * (∑ k, (a k * v k) * u k) + ∑ k, v k * v k
      = ∑ k, (u k * a k - v k) * (u k * a k - v k) := by
  rw [Finset.mul_sum, ← Finset.sum_sub_distrib, ← Finset.sum_add_distrib]
  exact Finset.sum_congr rfl fun k _ => by ring

/-- ON REAL ROWS the expanded score is the coordinate-wise one. -/
theorem kscore_coe (h t rh rt : ι → ℝ) :
    kscore (fun k => (h k : EReal)) (fun k => (t k : EReal)) (fun k => (rh k : EReal)) (fun k => (rt k : EReal))
      = score (fun k => (h k : EReal)) (fun k => (t k : EReal)) (fun k => (rh k : EReal)) (fun k => (rt k : EReal)) := by
  unfold kscore score
  simp only [unitE_coe, LibCoe.mul_coe, LibCoe.sub_coe, LibCoe.sum_coe, ofBits_two, ofBits_zero, LibCoe.add_coe, LibCoe.max_coe]
  have hnn : 0 ≤ ∑ k, (unitR t k * rt k - unitR h k * rh k) * (unitR t k * rt k - unitR h k * rh k) :=
    Finset.sum_nonneg fun k _ => mul_self_nonneg _
  rw [sqrt_coe_nonneg (le_max_right _ _), sqrt_coe_nonneg hnn, LibCoe.sub_coe, LibCoe.neg_coe,
    expand_sq (unitR t) rt (fun k => unitR h k * rh k), max_eq_left hnn, zero_sub]

/-- The same for rows of extended reals every entry of which is a real number. -/
theorem kscore_eq_score (h t rh rt : ι → EReal) (hh : ∀ k, ∃ r : ℝ, h k = r) (ht : ∀ k, ∃ r : ℝ, t k = r)
    (hrh : ∀ k, ∃ r : ℝ, rh k = r) (hrt : ∀ k, ∃ r : ℝ, rt k = r) : kscore h t rh rt = score h t rh rt := by
  choose h' eh using hh
  choose t' et using ht
  choose rh' erh using hrh
  choose rt' ert using hrt
  obtain rfl : h = fun k => (h' k : EReal) := funext eh
  obtain rfl : t = fun k => (t' k : EReal) := funext et
  obtain rfl : rh = fun k => (rh' k : EReal) := funext erh
  obtain rfl : rt = fun k => (rt' k : EReal) := funext ert
  exact kscore_coe h' t' rh' rt'

end Cert.PairRE

end
-- ==== Proof.KernelPay.lean ====
/-
  The kernel body's stored value, read at one index of the output block.

  The body normalises the head block's rows and the tail array's rows, forms the three row-wise products it
  needs, takes two matrix products against the tail rows and one row sum, and stores
  `0 − √(max(A − 2·B + C, 0))`. Read at row `p` and column `q` of the block this is the expanded score
  (`Cert.PairRE.kscore`) of head row `p`, tail row `q` and the two relation rows `p`:
  a keep-dims row sum read at `(p, 0)` is the sum over the row, a column broadcast reads its column at
  `(p, 0)`, and a matrix product contracting both operands' second axis into a zero accumulator is
  `∑ₖ l(p,k) · r(q,k)`.
-/
import proofs.«114035_j19370302505584_1_alg».proof.Proof.Gen.KernelIdeal.Skeleton
import proofs.«114035_j19370302505584_1_alg».proof.Proof.Score
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.PairRE
open Finset BigOperators

/-! ## The layout and reduction steps at an index -/

section Steps
variable {α : Type} {R C : Nat}

/-- A column `[R,1]` broadcast along the rows to `[R,C]` reads, at `(p, k)`, the column at `(p, 0)`. -/
theorem colBroadcast_apply (col : (⟨2, ![R, 1]⟩ : Shape).Idx → α) (h : (⟨2, ![R, 1]⟩ : Shape).Broadcasts ⟨2, ![R, C]⟩)
    (p : Fin R) (k : Fin C) : broadcastTo ⟨2, ![R, C]⟩ col h (ix2 p k) = col (ix2 p (0 : Fin 1)) :=
  broadcastTo_apply col h (ix2 p k) (ix2 p (0 : Fin 1)) (fun a => match a with
    | ⟨0, _⟩ => by
        show p.val = if R = 1 then 0 else p.val
        split
        · have := p.isLt; omega
        · rfl
    | ⟨1, _⟩ => by show 0 = if (1 : Nat) = 1 then 0 else k.val; rw [if_pos rfl])

/-- The sum of a `[R,C]` vector along its rows, kept as a column `[R,1]`, read at `(p, 0)`: the sum of row `p`. -/
theorem rowSumCol_apply (v : FVec Ideal ⟨2, ![R, C]⟩ .f32) (acc : BitVec (FTy.bits .f32))
    (hred : (⟨2, ![R, C]⟩ : Shape).Reduces [1] ⟨1, ![R]⟩) (hφ : FKind.Formats .f32) (hacc : acc = FKind.add.neutral .f32 hφ)
    (hsc : (⟨1, ![R]⟩ : Shape).ShapeCasts ⟨2, ![R, 1]⟩) (p : Fin R) (z : Fin 1) :
    shapeCast ⟨2, ![R, 1]⟩ (multiReduction .add [1] ⟨1, ![R]⟩ v acc hred hφ hacc) hsc (ix2 p z) = ∑ k : Fin C, v (ix2 p k) := by
  refine (shapeCast_apply _ hsc (ix2 p z) (ix1 p) ?_).trans ?_
  · rw [Shape.rowMajor_val_one, Shape.rowMajor_val_two]
    show p.val = p.val * 1 + z.val
    have := z.isLt; omega
  · refine (Ideal.multiReduction_add_single v acc hred hφ hacc (ix1 p)).trans ?_
    refine Finset.sum_congr rfl fun k _ => congrArg v ?_
    funext a
    match a with
    | ⟨0, _⟩ => rfl
    | ⟨1, _⟩ => rfl

end Steps

/-! ## The matrix product at an index -/

/-- The body's dimension numbers: both operands contract their second axis. -/
abbrev D : DotDims S128x256 S2048x256 S128x2048 := dot_S128x256_S2048x256_S128x2048_1_1_0_0_n_n

theorem lhs_D_0 (i : S128x2048.Idx) (q : dot_S128x256_S2048x256_S128x2048_1_1_0_0_n_n.contr.Idx) :
    (dot_S128x256_S2048x256_S128x2048_1_1_0_0_n_n.lhsIdx i q 0).val = (i 0).val := by
  unfold DotDims.lhsIdx
  rw [dif_neg (show ¬(0 : Fin S128x256.rank) ∈ dot_S128x256_S2048x256_S128x2048_1_1_0_0_n_n.lhsBatch by decide),
    dif_pos (show (0 : Fin S128x256.rank) ∈ dot_S128x256_S2048x256_S128x2048_1_1_0_0_n_n.lhsNonContracting by decide)]
  rfl
theorem lhs_D_1 (i : S128x2048.Idx) (q : dot_S128x256_S2048x256_S128x2048_1_1_0_0_n_n.contr.Idx) :
    (dot_S128x256_S2048x256_S128x2048_1_1_0_0_n_n.lhsIdx i q 1).val = (q ⟨0, by decide⟩).val :=
  dot_S128x256_S2048x256_S128x2048_1_1_0_0_n_n.lhsIdx_val_of_single rfl i q
theorem rhs_D_0 (i : S128x2048.Idx) (q : dot_S128x256_S2048x256_S128x2048_1_1_0_0_n_n.contr.Idx) :
    (dot_S128x256_S2048x256_S128x2048_1_1_0_0_n_n.rhsIdx i q 0).val = (i 1).val := by
  unfold DotDims.rhsIdx
  rw [dif_neg (show ¬(0 : Fin S2048x256.rank) ∈ dot_S128x256_S2048x256_S128x2048_1_1_0_0_n_n.rhsBatch by decide),
    dif_pos (show (0 : Fin S2048x256.rank) ∈ dot_S128x256_S2048x256_S128x2048_1_1_0_0_n_n.rhsNonContracting by decide)]
  rfl
theorem rhs_D_1 (i : S128x2048.Idx) (q : dot_S128x256_S2048x256_S128x2048_1_1_0_0_n_n.contr.Idx) :
    (dot_S128x256_S2048x256_S128x2048_1_1_0_0_n_n.rhsIdx i q 1).val = (q ⟨0, by decide⟩).val :=
  dot_S128x256_S2048x256_S128x2048_1_1_0_0_n_n.rhsIdx_val_of_single rfl i q

/-- The matrix product into a zero accumulator, at `(p, q)`: `∑ₖ l(p,k) · r(q,k)`. -/
theorem matmulRows_apply {φ₁ φ₂ : FTy} (l : FVec Ideal S128x256 φ₁) (r : FVec Ideal S2048x256 φ₂) (p : Fin 128) (q : Fin 2048) :
    matmul dot_S128x256_S2048x256_S128x2048_1_1_0_0_n_n none l r (constant (F := Ideal) S128x2048 .f32 0x00000000#32) (ix2 p q)
      = ∑ k : Fin 256, l (ix2 p k) * r (ix2 q k) := by
  simp only [matmul]
  rw [Ideal.matmul_constant_zero_apply, ← Equiv.sum_comp (contrEquiv1 dot_S128x256_S2048x256_S128x2048_1_1_0_0_n_n 256 rfl rfl).symm]
  refine Finset.sum_congr rfl fun k _ => ?_
  have hk := contrEquiv1_symm_val dot_S128x256_S2048x256_S128x2048_1_1_0_0_n_n 256 rfl rfl k
  have el : dot_S128x256_S2048x256_S128x2048_1_1_0_0_n_n.lhsIdx (ix2 p q)
      ((contrEquiv1 dot_S128x256_S2048x256_S128x2048_1_1_0_0_n_n 256 rfl rfl).symm k) = ix2 p k := funext fun a => Fin.ext (by
    match a with
    | ⟨0, _⟩ => exact lhs_D_0 _ _
    | ⟨1, _⟩ => exact (lhs_D_1 _ _).trans hk)
  have er : dot_S128x256_S2048x256_S128x2048_1_1_0_0_n_n.rhsIdx (ix2 p q)
      ((contrEquiv1 dot_S128x256_S2048x256_S128x2048_1_1_0_0_n_n 256 rfl rfl).symm k) = ix2 q k := funext fun a => Fin.ext (by
    match a with
    | ⟨0, _⟩ => exact rhs_D_0 _ _
    | ⟨1, _⟩ => exact (rhs_D_1 _ _).trans hk)
  rw [el, er]

/-! ## The stored value at an index -/

/-- A vector square root reads the square root of its element. -/
theorem sqrt_apply {s : Shape} {φ : FTy} (a : FVec Ideal s φ) (i : s.Idx) : sqrt a i = Ideal.sqrt (a i) := rfl

/-- THE STORED VALUE AT `(p, q)` is the expanded score of head row `p`, tail row `q` and relation rows `p`. -/
theorem pay_apply (x0 x1 x2 : FVec Ideal S128x256 .f32) (x3 : FVec Ideal S2048x256 .f32) (p : Fin 128) (q : Fin 2048) :
    k0_pay1 (k0_pay2 x0 x3 x1 x2) (k0_pay3 (F := Ideal)) (ix2 p q)
      = kscore (fun k : Fin 256 => x0 (ix2 p k)) (fun k => x3 (ix2 q k)) (fun k => x1 (ix2 p k)) (fun k => x2 (ix2 p k)) := by
  unfold k0_pay1 k0_pay2 k0_pay3 kscore unitE
  simp only [shapeCast_self]
  simp only [subf_apply, addf_apply, mulf_apply, divf_apply, maximumf_apply, sqrt_apply, truncf_apply, broadcast_apply,
    colBroadcast_apply, matmulRows_apply,
    rowSumCol_apply _ 0x00000000#32 reduces_S128x256_S128 (Or.inl rfl) rfl shapeCasts_S128_S128x1,
    rowSumCol_apply _ 0x00000000#32 reduces_S2048x256_S2048 (Or.inl rfl) rfl shapeCasts_S2048_S2048x1]
  rfl

end Cert.KernelIdeal.Pay

end
-- ==== Proof.KernelArr.lean ====
/-
  From the blocks the kernel writes back to the whole result array.

  Grid point `t` of the four stages rows `128 t … 128 t + 127` of the head array and of the two relation
  arrays, the WHOLE normalisable tail array, and writes back rows `128 t … 128 t + 127` of the result. What it
  writes at row `p`, column `q` of its block is the expanded score of head row `128 t + p`, tail row `q` and
  relation rows `128 t + p` — so every block is the restriction of ONE function `G` of the four arrays as the
  region finds them, `G(b, n) = kscore(head row b, tail row n, relation rows b)`; the four blocks tile the
  result's 512 rows, hence the result array ends holding `G`.
-/
import proofs.«114035_j19370302505584_1_alg».proof.Proof.Gen.KernelIdeal.Value
import proofs.«114035_j19370302505584_1_alg».proof.Proof.KernelPay

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.PairRE
open Idealize.ShloMosaic.Pipeline (Dat)

/-- The result at row `b`, column `n`, from the four arrays the region reads. -/
def Gk (h rh rt : FVec Ideal S512x256 .f32) (tl : FVec Ideal S2048x256 .f32) (b : Fin 512) (n : Fin 2048) : EReal :=
  kscore (fun k : Fin 256 => h (ix2 b k)) (fun k : Fin 256 => tl (ix2 n k)) (fun k : Fin 256 => rh (ix2 b k))
    (fun k : Fin 256 => rt (ix2 b k))

/-- The whole result array as one function of those arrays. -/
def G (h rh rt : FVec Ideal S512x256 .f32) (tl : FVec Ideal S2048x256 .f32) : FVec Ideal S512x2048 .f32 :=
  fun i => Gk h rh rt tl (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the four grid points: the head window, the two relation windows and the result
    window sit on the same row block, first column block; the tail window never moves. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = 0
    ∧ win0_4.index t (0 : Fin 2) ≤ 3
    ∧ win0_4.index t (1 : Fin 2) = 0 :=
  (by decide +kernel : ∀ t : Fin grid0.N, _)

/-- Every row block of the result is some point's. -/
theorem idx_onto : ∀ q0 : Fin 4, ∃ t : Fin cfg0.N, win0_4.index t = ![q0.val, 0] :=
  (by decide +kernel : ∀ q0 : Fin 4, ∃ t : Fin grid0.N, win0_4.index t = ![q0.val, 0])

/-- `G` at an index whose coordinates are `b` and `n`. -/
theorem G_apply (h rh rt : FVec Ideal S512x256 .f32) (tl : FVec Ideal S2048x256 .f32) (i : S512x2048.Idx) (b : Fin 512) (n : Fin 2048)
    (hb : (i 0).val = b.val) (hn : (i 1).val = n.val) : G h rh rt tl i = Gk h rh rt tl b n := by
  unfold G
  have e0 : (i 0 : Fin 512) = b := Fin.ext hb
  have e1 : (i 1 : Fin 2048) = n := Fin.ext hn
  rw [e0, e1]

/-- The expanded score depends on its rows entry by entry. -/
theorem kscore_congr {h h' tl tl' rh rh' rt rt' : Fin 256 → EReal} (e0 : ∀ k, h k = h' k) (e1 : ∀ k, tl k = tl' k)
    (e2 : ∀ k, rh k = rh' k) (e3 : ∀ k, rt k = rt' k) : kscore h tl rh rt = kscore h' tl' rh' rt' := by
  obtain rfl : h = h' := funext e0
  obtain rfl : tl = tl' := funext e1
  obtain rfl : rh = rh' := funext e2
  obtain rfl : rt = rt' := funext e3
  rfl

/-- WHAT POINT `t` WRITES BACK is block `t` of `G` of the arrays as the region finds them. -/
theorem flushed_eq (c : Dev nD) (t : Fin cfg0.N) :
    (dats m 0 c).flushed 4 t = ((cfg0.win 4).blk t).view.read (Elt Ideal)
      (G (V m c main_arg0) (V m c main_v7) (V m c main_v8) (V m c main_v9)) := by
  rw [Value.flushed4]
  unfold out0_4
  rw [View.canon_unit_zero hz]
  simp only [View.ld_unit_zero (S := S128x256) hz, View.ld_unit_zero (S := S2048x256) hz]
  obtain ⟨e00, e01, e10, e11, e20, e21, e30, e31, e4le, e41⟩ := idx_facts t
  funext j
  obtain ⟨p, q, rfl⟩ : ∃ (p : Fin 128) (q : Fin 2048), j = ix2 p q := ⟨j 0, j 1, eq_ix2 j⟩
  have hp : p.val < 128 := p.isLt
  show k0_pay1 (k0_pay2 (iblk m c 0 t) (iblk m c 3 t) (iblk m c 1 t) (iblk m c 2 t)) (k0_pay3 (F := Ideal)) (ix2 p q)
    = G (V m c main_arg0) (V m c main_v7) (V m c main_v8) (V m c main_v9) (((cfg0.win 4).blk t).view.emb (ix2 p q))
  refine (Pay.pay_apply (iblk m c 0 t) (iblk m c 1 t) (iblk m c 2 t) (iblk m c 3 t) p q).trans ?_
  refine Eq.trans ?_ (G_apply _ _ _ _ _ ⟨win0_4.index t (0 : Fin 2) * 128 + p.val, by omega⟩ q ?_ ?_).symm
  · unfold Gk
    refine kscore_congr (fun k => ?_) (fun k => ?_) (fun k => ?_) (fun k => ?_)
    · show V m c main_arg0 (((cfg0.win 0).blk t).view.emb (ix2 p k)) = V m c main_arg0 _
      refine congrArg _ (funext fun a => Fin.ext ?_)
      match a with
      | ⟨0, _⟩ => show win0_0.index t (0 : Fin 2) * 128 + 1 * p.val = win0_4.index t (0 : Fin 2) * 128 + p.val; omega
      | ⟨1, _⟩ => show win0_0.index t (1 : Fin 2) * 256 + 1 * k.val = k.val; omega
    · show V m c main_v9 (((cfg0.win 3).blk t).view.emb (ix2 q k)) = V m c main_v9 _
      refine congrArg _ (funext fun a => Fin.ext ?_)
      match a with
      | ⟨0, _⟩ => show win0_3.index t (0 : Fin 2) * 2048 + 1 * q.val = q.val; omega
      | ⟨1, _⟩ => show win0_3.index t (1 : Fin 2) * 256 + 1 * k.val = k.val; omega
    · show V m c main_v7 (((cfg0.win 1).blk t).view.emb (ix2 p k)) = V m c main_v7 _
      refine congrArg _ (funext fun a => Fin.ext ?_)
      match a with
      | ⟨0, _⟩ => show win0_1.index t (0 : Fin 2) * 128 + 1 * p.val = win0_4.index t (0 : Fin 2) * 128 + p.val; omega
      | ⟨1, _⟩ => show win0_1.index t (1 : Fin 2) * 256 + 1 * k.val = k.val; omega
    · show V m c main_v8 (((cfg0.win 2).blk t).view.emb (ix2 p k)) = V m c main_v8 _
      refine congrArg _ (funext fun a => Fin.ext ?_)
      match a with
      | ⟨0, _⟩ => show win0_2.index t (0 : Fin 2) * 128 + 1 * p.val = win0_4.index t (0 : Fin 2) * 128 + p.val; omega
      | ⟨1, _⟩ => show win0_2.index t (1 : Fin 2) * 256 + 1 * k.val = k.val; omega
  · show win0_4.index t (0 : Fin 2) * 128 + 1 * p.val = win0_4.index t (0 : Fin 2) * 128 + p.val; omega
  · show win0_4.index t (1 : Fin 2) * 2048 + 1 * q.val = q.val; omega

/-- An index of the result is in point `t`'s block iff each coordinate is in the block's range on its axis. -/
theorem mem_blk (t : Fin cfg0.N) (i : S512x2048.Idx) :
    i ∈ ((cfg0.win 4).blk t).view.set ↔ ∀ a : Fin 2, win0_4.index t a * S128x2048.size a ≤ (i a).val
      ∧ (i a).val < win0_4.index t a * S128x2048.size a + S128x2048.size a := by
  show i ∈ ((View.whole main_v10).slice (win0_4.rect t)).set ↔ _
  rw [View.set_slice_whole, Rect.mem_set_unit]
  exact Iff.rfl

/-- The four blocks cover the result: row `r` is in the block of the point whose row block is `r / 128`. -/
theorem cover (i : S512x2048.Idx) : ∃ t : Fin cfg0.N, (cfg0.win 4).flush t = true ∧ i ∈ ((cfg0.win 4).blk t).view.set := by
  have hi0 : (i 0).val < 512 := (i 0).isLt
  have hi1 : (i 1).val < 2048 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

/-- THE RESULT ARRAY after the run is `G` of the arrays as the region finds them. -/
theorem final (c : Dev nD) :
    (dats m 0 c).arrAt 4 cfg0.N = G (V m c main_arg0) (V m c main_v7) (V m c main_v8) (V m c main_v9) :=
  (dats m 0 c).arrAt_eq_of_cover 4 (G (V m c main_arg0) (V m c main_v7) (V m c main_v8) (V m c main_v9))
    (fun t _ => flushed_eq m c t) cover

end Cert.KernelIdeal.Arr

end
-- ==== Proof.HostPre.lean ====
/-
  The arrays the kernel region reads, as functions of the program's arguments.

  Before the region the program gathers one relation row per batch entry (the index first wrapped if negative),
  cuts the gathered rows into their first and second halves, and drops the tail array's leading unit axis.
  So the first relation window's array is the first half of the gathered rows, the second one's the second half,
  and the tail window's array at `(n, k)` is the tail argument at `(0, n, k)`.
-/
import proofs.«114035_j19370302505584_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The gathered relation rows: row `b` of the table at the (wrapped) index the batch entry `b` names. -/
def rel (x2 : FVec F S1000x512 .f32) (x3 : IVec S512 32) : FVec F S512x512 .f32 :=
  Host.gather gather_S1000x512_S512x1_S512x512_1_0_n_n_0_1_1512 x2
    (broadcastInDim S512x1 ![0] bcast_S512_S512x1_0
      (select (cmpi .slt x3 (broadcastInDim S512 ![] bcast_S_S512 (constantI S_ 32 0#32)))
        (addi x3 (broadcastInDim S512 ![] bcast_S_S512 (constantI S_ 32 1000#32))) x3))

variable (m : (ℓ : Loc nD τ sig) → Buf (Elt F) ℓ)

/-- The first relation window's array: the first half of the gathered rows. -/
theorem V_main_v7 (c : Dev nD) :
    (V m c main_v7 : FVec F S512x256 .f32)
      = extractStridedSlice S512x256 ![0, 0]
          (rel (m ((c : Thread nD τ).loc main_arg2)) (m ((c : Thread nD τ).loc main_arg3))) slices_S512x512_S512x256_0_0 := by
  dsimp only [Gen.V, Gen.hostOps0]
  after_results
  rfl

/-- The second relation window's array: the second half of the gathered rows. -/
theorem V_main_v8 (c : Dev nD) :
    (V m c main_v8 : FVec F S512x256 .f32)
      = extractStridedSlice S512x256 ![0, 256]
          (rel (m ((c : Thread nD τ).loc main_arg2)) (m ((c : Thread nD τ).loc main_arg3))) slices_S512x512_S512x256_0_256 := by
  dsimp only [Gen.V, Gen.hostOps0]
  after_results
  rfl

/-- The tail window's array: the tail argument with its leading unit axis dropped. -/
theorem V_main_v9 (c : Dev nD) :
    (V m c main_v9 : FVec F S2048x256 .f32)
      = shapeCast S2048x256 (m ((c : Thread nD τ).loc main_arg1)) shapeCasts_S1x2048x256_S2048x256 := by
  dsimp only [Gen.V, Gen.hostOps0]
  after_results
  rfl

/-- Read at `(n, k)` it is the argument at `(0, n, k)`. -/
theorem tail_apply (x1 : FVec F S1x2048x256 .f32) (n : Fin 2048) (k : Fin 256) :
    shapeCast S2048x256 x1 shapeCasts_S1x2048x256_S2048x256 (ix2 n k) = x1 (ix3 (0 : Fin 1) n k) := by
  refine shapeCast_apply x1 _ (ix2 n k) (ix3 (0 : Fin 1) n k) ?_
  rw [Shape.rowMajor_val_three, Shape.rowMajor_val_two]
  show ((0 : Fin 1).val * 2048 + n.val) * 256 + k.val = n.val * 256 + k.val
  simp

end Cert.KernelIdeal.HostPre

end
-- ==== Proof.RefRead.lean ====
/-
  The reference's result, read at one index.

  The reference normalises the head rows and the tail rows, broadcasts tail row `n` times relation row `b`
  (second half) against normalised head row `b` times relation row `b` (first half) to a `[512, 2048, 256]`
  array of differences, and takes `−√` of the sum of their squares along the last axis. Every operation on the
  way reads its operand at one computed index, so the result at `(b, n)` is the coordinate-wise score
  (`Cert.PairRE.score`) of head row `b`, tail row `n` and the two relation rows `b`.
-/
import proofs.«114035_j19370302505584_1_alg».proof.Proof.Gen.ReferenceIdeal.Read
import proofs.«114035_j19370302505584_1_alg».proof.Proof.Score
import Idealize.ShloMosaic.Lib.ValueIdx

noncomputable section

namespace Cert.ReferenceIdeal.RefValue

open Cert.ReferenceIdeal Cert.ReferenceIdeal.Read Idealize.ShloMosaic Idealize.ShloMosaic.ValueIdx Cert.PairRE
open Finset BigOperators

variable (x0 : (⟨S512x256, .f32⟩ : BufTy).Contents (Elt Ideal)) (x1 : (⟨S1x2048x256, .f32⟩ : BufTy).Contents (Elt Ideal))
  (x2 : (⟨S1000x512, .f32⟩ : BufTy).Contents (Elt Ideal)) (x3 : (⟨S512, .i32⟩ : BufTy).Contents (Elt Ideal))

/-- The normalised head array at `(b, k)` is the normalised head row `b` at `k`. -/
theorem head_unit (b : Fin 512) (k : Fin 256) :
    val_main_v16 (F := Ideal) x0 (ix2 b k) = unitE (fun e : Fin 256 => x0 (ix2 b e)) k := by
  rw [val_main_v16_apply, val_main_v15_apply, val_main_v14_apply, val_main_v12_apply, val_main_v11_apply,
    val_main_v10_apply, val_main_v13_apply, val_main_cst_1_apply, val_main_cst_apply]
  simp only [val_main_v9_apply]
  have e : ∀ e' : Fin 256, idx_main_v10 (idx_main_v11 (idx_main_v15 (ix2 b k))) e' = ix2 b e' := fun e' =>
    funext fun a => by match a with | ⟨0, _⟩ => rfl | ⟨1, _⟩ => rfl
  simp only [e]
  unfold unitE
  simp only [Ideal.hostDivf_def, Ideal.maximumf_def, Ideal.hostUnary_sqrt_def, Ideal.mulf_def, Ideal.ofBits_def,
    Ideal.ofBits_zero_f32, zero_add]

/-- The normalised tail array at `(0, n, k)` is the normalised tail row `n` at `k`. -/
theorem tail_unit (n : Fin 2048) (k : Fin 256) :
    val_main_v24 (F := Ideal) x1 (ix3 (0 : Fin 1) n k) = unitE (fun e : Fin 256 => x1 (ix3 (0 : Fin 1) n e)) k := by
  rw [val_main_v24_apply, val_main_v23_apply, val_main_v22_apply, val_main_v20_apply, val_main_v19_apply,
    val_main_v18_apply, val_main_v21_apply, val_main_cst_3_apply, val_main_cst_2_apply]
  simp only [val_main_v17_apply]
  have e : ∀ e' : Fin 256, idx_main_v18 (idx_main_v19 (idx_main_v23 (ix3 (0 : Fin 1) n k))) e' = ix3 (0 : Fin 1) n e' := fun e' =>
    funext fun a => by match a with | ⟨0, _⟩ => rfl | ⟨1, _⟩ => rfl | ⟨2, _⟩ => rfl
  simp only [e]
  unfold unitE
  simp only [Ideal.hostDivf_def, Ideal.maximumf_def, Ideal.hostUnary_sqrt_def, Ideal.mulf_def, Ideal.ofBits_def,
    Ideal.ofBits_zero_f32, zero_add]

/-- THE REFERENCE'S RESULT AT `(b, n)` is the coordinate-wise score of head row `b`, tail row `n` and relation rows `b`. -/
theorem result_apply (b : Fin 512) (n : Fin 2048) :
    val_main_v36 (F := Ideal) x0 x1 x2 x3 (ix2 b n)
      = score (fun k : Fin 256 => x0 (ix2 b k)) (fun k : Fin 256 => x1 (ix3 (0 : Fin 1) n k))
          (fun k : Fin 256 => val_main_v7 (F := Ideal) x2 x3 (ix2 b k)) (fun k : Fin 256 => val_main_v8 (F := Ideal) x2 x3 (ix2 b k)) := by
  rw [val_main_v36_apply, val_main_v35_apply, val_main_v34_apply, val_main_cst_4_apply]
  simp only [val_main_v33_apply, val_main_v32_apply, val_main_v28_apply, val_main_v26_apply, val_main_v27_apply,
    val_main_v25_apply, val_main_v31_apply, val_main_v30_apply, val_main_v29_apply]
  have e26 : ∀ k : Fin 256, idx_main_v26 (idx_main_v34 (ix2 b n) k) = ix3 (0 : Fin 1) n k := fun k =>
    funext fun a => by match a with | ⟨0, _⟩ => rfl | ⟨1, _⟩ => rfl | ⟨2, _⟩ => rfl
  have e25 : ∀ k : Fin 256, idx_main_v25 (idx_main_v27 (idx_main_v34 (ix2 b n) k)) = ix2 b k := fun k =>
    funext fun a => by match a with | ⟨0, _⟩ => rfl | ⟨1, _⟩ => rfl
  have e30 : ∀ k : Fin 256, idx_main_v30 (idx_main_v31 (idx_main_v34 (ix2 b n) k)) = ix2 b k := fun k =>
    funext fun a => by match a with | ⟨0, _⟩ => rfl | ⟨1, _⟩ => rfl
  simp only [e26, e25, e30, head_unit, tail_unit]
  unfold score
  simp only [Ideal.hostNegf_def, Ideal.negf_def, Ideal.hostUnary_sqrt_def, Ideal.mulf_def, Ideal.subf_def, Ideal.ofBits_def,
    Ideal.ofBits_zero_f32, zero_add]

end Cert.ReferenceIdeal.RefValue

end
-- ==== Proof.Bridge.lean ====
/-
  The two results are one array.

  At `(b, n)` the reference holds the coordinate-wise score and the kernel the expanded score of the SAME four
  rows: head row `b`, tail row `n` (the kernel reads it through the reshaped tail array), and the two halves of
  the gathered relation row `b` (both programs gather and cut them by the same operations). Every entry of those
  rows is a real number when the float arguments' entries are — a gathered row is a row of the table —, and on
  real rows the two scores agree.
-/
import proofs.«114035_j19370302505584_1_alg».proof.Proof.KernelArr
import proofs.«114035_j19370302505584_1_alg».proof.Proof.HostPre
import proofs.«114035_j19370302505584_1_alg».proof.Proof.RefRead

noncomputable section

namespace Cert.Bridge

open Idealize.ShloMosaic Idealize.ShloMosaic.TcCoe Idealize.SL.Sem Idealize.ShloMosaic.ValueIdx Cert.PairRE

/-- Both programs cut the first halves of the gathered rows by the same operations. -/
theorem relHead_eq (x2 : FVec Ideal Cert.KernelIdeal.S1000x512 .f32) (x3 : IVec Cert.KernelIdeal.S512 32) :
    extractStridedSlice Cert.KernelIdeal.S512x256 ![0, 0] (Cert.KernelIdeal.HostPre.rel x2 x3)
        Cert.KernelIdeal.Facts₀.slices_S512x512_S512x256_0_0
      = Cert.ReferenceIdeal.Read.val_main_v7 (F := Ideal) x2 x3 := rfl

/-- And the second halves. -/
theorem relTail_eq (x2 : FVec Ideal Cert.KernelIdeal.S1000x512 .f32) (x3 : IVec Cert.KernelIdeal.S512 32) :
    extractStridedSlice Cert.KernelIdeal.S512x256 ![0, 256] (Cert.KernelIdeal.HostPre.rel x2 x3)
        Cert.KernelIdeal.Facts₀.slices_S512x512_S512x256_0_256
      = Cert.ReferenceIdeal.Read.val_main_v8 (F := Ideal) x2 x3 := rfl

/-- An entry of a half of the gathered rows is an entry of the table. -/
theorem relHead_real (x2 : FVec Ideal Cert.ReferenceIdeal.S1000x512 .f32) (x3 : IVec Cert.ReferenceIdeal.S512 32)
    (hx : ∀ i, ∃ r : ℝ, x2 i = r) (i : Cert.ReferenceIdeal.S512x256.Idx) :
    ∃ r : ℝ, Cert.ReferenceIdeal.Read.val_main_v7 (F := Ideal) x2 x3 i = r := by
  rw [Cert.ReferenceIdeal.Read.val_main_v7_apply]
  unfold Cert.ReferenceIdeal.Read.val_main_v6 Host.gather
  exact hx _

theorem relTail_real (x2 : FVec Ideal Cert.ReferenceIdeal.S1000x512 .f32) (x3 : IVec Cert.ReferenceIdeal.S512 32)
    (hx : ∀ i, ∃ r : ℝ, x2 i = r) (i : Cert.ReferenceIdeal.S512x256.Idx) :
    ∃ r : ℝ, Cert.ReferenceIdeal.Read.val_main_v8 (F := Ideal) x2 x3 i = r := by
  rw [Cert.ReferenceIdeal.Read.val_main_v8_apply]
  unfold Cert.ReferenceIdeal.Read.val_main_v6 Host.gather
  exact hx _

open Cert.KernelIdeal in
/-- THE REFERENCE'S RESULT IS THE KERNEL'S RESULT ARRAY, when the float arguments' entries are real numbers. -/
theorem result_eq (m : (ℓ : Loc nD τ sig) → Buf (Elt Ideal) ℓ) (c : Dev nD)
    (h0 : ∀ i, ∃ r : ℝ, (m ((c : Thread nD τ).loc main_arg0) : FVec Ideal S512x256 .f32) i = (r : EReal))
    (h1 : ∀ i, ∃ r : ℝ, (m ((c : Thread nD τ).loc main_arg1) : FVec Ideal S1x2048x256 .f32) i = (r : EReal))
    (h2 : ∀ i, ∃ r : ℝ, (m ((c : Thread nD τ).loc main_arg2) : FVec Ideal S1000x512 .f32) i = (r : EReal)) :
    Cert.ReferenceIdeal.Read.val_main_v36 (F := Ideal) (m ((c : Thread nD τ).loc main_arg0)) (m ((c : Thread nD τ).loc main_arg1))
        (m ((c : Thread nD τ).loc main_arg2)) (m ((c : Thread nD τ).loc main_arg3))
      = Arr.G (Gen.V m c main_arg0) (Gen.V m c main_v7) (Gen.V m c main_v8) (Gen.V m c main_v9) := by
  funext i
  obtain ⟨b, n, rfl⟩ : ∃ (b : Fin 512) (n : Fin 2048), i = ix2 b n := ⟨i 0, i 1, eq_ix2 i⟩
  rw [Cert.ReferenceIdeal.RefValue.result_apply]
  refine Eq.trans ?_ (Arr.G_apply _ _ _ _ _ b n rfl rfl).symm
  unfold Arr.Gk
  rw [Gen.V_main_arg0, HostPre.V_main_v7, HostPre.V_main_v8, HostPre.V_main_v9, relHead_eq, relTail_eq]
  refine Eq.trans (kscore_eq_score _ _ _ _ (fun k => h0 _) (fun k => h1 _) (fun k => relHead_real _ _ h2 _)
    (fun k => relTail_real _ _ h2 _)).symm ?_
  exact Arr.kscore_congr (fun _ => rfl) (fun k => (HostPre.tail_apply (F := Ideal) (m ((c : Thread nD τ).loc main_arg1)) n k).symm) (fun _ => rfl) (fun _ => rfl)

end Cert.Bridge

end
-- ==== Proof.Finite.lean ====
/-
  The precondition, read back: every entry of the three float arguments is a real number.

  The printed precondition is the conjunction of three `all(|x| < +∞)` tests, one per float argument. An
  extended real whose absolute value `max(x, −x)` is below `+∞` is neither `+∞` nor `−∞`, so it is the
  coercion of a real.
-/
import proofs.«114035_j19370302505584_1_alg».proof.Pre_finite_inputs
import proofs.«114035_j19370302505584_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The pattern of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  rw [Ideal.hostAbsf_def, Ideal.absf_def, Ideal.cmpf_def, Ideal.ofBits_def, ofBits_inf] at h
  induction x using EReal.rec with
  | bot => simp [Ideal.cmp] at h
  | coe r => exact ⟨r, rfl⟩
  | top => simp [Ideal.cmp] at h

/-- Under the precondition every entry of each float argument is a real number. -/
theorem real_of_pre (a0 : FVec Ideal S512x256 .f32) (a1 : FVec Ideal S1x2048x256 .f32) (a2 : FVec Ideal S1000x512 .f32)
    (a3 : IVec S512 32) (h : fn (F := Ideal) a0 a1 a2 a3 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.Finite

end
-- ==== Proof.lean ====
/-
  The certificate of the PairRE tail-scoring kernel against its reference, over the extended reals.

  The reference scores batch entry `b` against tail `n` as `−‖u ∘ r_t − w ∘ r_h‖₂`, where `u` is tail row `n` and `w`
  head row `b`, each divided by its Euclidean norm clamped at `ε`, and `(r_h, r_t)` are the two halves of the gathered
  relation row `b`. The kernel expands the square, `∑ r_t²u² − 2 ∑ (r_t (w r_h)) u + ∑ (w r_h)²`, so that the two
  sums over tail rows are matrix products, clamps the result at zero, and writes `0 − √·`.

  * The three frames: the two kernel programs' are generated whole; the reference's is its generated run with
    the result dropped.
  * `preserves`: the idealization rewrote nothing.
  * `algebraic`: the kernel's result array is one function `G` of the arrays its region reads (its four row
    blocks tile the result); the precondition makes every entry of the float arguments a real number, on real
    rows the expanded score is the coordinate-wise one (the binomial identity, a sum of squares is non-negative,
    `0 − s = −s`), and both programs compute the relation rows by the same host operations.
-/
import proofs.«114035_j19370302505584_1_alg».proof.Defs
import proofs.«114035_j19370302505584_1_alg».proof.Proof.Gen.Kernel
import proofs.«114035_j19370302505584_1_alg».proof.Proof.Gen.Kernel.Skeleton
import proofs.«114035_j19370302505584_1_alg».proof.Proof.Gen.Kernel.Launch
import proofs.«114035_j19370302505584_1_alg».proof.Proof.Gen.Kernel.Points
import proofs.«114035_j19370302505584_1_alg».proof.Proof.Gen.Kernel.Frame
import proofs.«114035_j19370302505584_1_alg».proof.Proof.Gen.KernelIdeal
import proofs.«114035_j19370302505584_1_alg».proof.Proof.Gen.KernelIdeal.Skeleton
import proofs.«114035_j19370302505584_1_alg».proof.Proof.Gen.KernelIdeal.Launch
import proofs.«114035_j19370302505584_1_alg».proof.Proof.Gen.KernelIdeal.Points
import proofs.«114035_j19370302505584_1_alg».proof.Proof.Gen.KernelIdeal.Frame
import proofs.«114035_j19370302505584_1_alg».proof.Proof.Gen.ReferenceIdeal
import proofs.«114035_j19370302505584_1_alg».proof.Proof.Gen.Pre_finite_inputs
import proofs.«114035_j19370302505584_1_alg».proof.Proof.Gen.KernelIdeal.Value
import proofs.«114035_j19370302505584_1_alg».proof.Proof.Gen.ReferenceIdeal.Run
import proofs.«114035_j19370302505584_1_alg».proof.Proof.Gen.ReferenceIdeal.Read
import proofs.«114035_j19370302505584_1_alg».proof.Proof.Bridge
import proofs.«114035_j19370302505584_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the array `G` of the kernel's region-entry
    arrays: the kernel by its blocks, the reference by the equality of the two scores on real rows. -/
theorem algebraic : Cert.algebraic_KernelIdeal_ReferenceIdeal := by
  intro m ρ m' ρ' hpre hagree
  refine ⟨fun c => Cert.KernelIdeal.Arr.G (Cert.KernelIdeal.Gen.V m c Cert.KernelIdeal.main_arg0)
      (Cert.KernelIdeal.Gen.V m c Cert.KernelIdeal.main_v7) (Cert.KernelIdeal.Gen.V m c Cert.KernelIdeal.main_v8)
      (Cert.KernelIdeal.Gen.V m c Cert.KernelIdeal.main_v9), ?_, ?_⟩
  · exact (θ_run Cert.KernelIdeal.defs _ _).mono
      (fun r h c => ⟨(h c).1.trans (Cert.KernelIdeal.Arr.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2.1, (hagree c).2.2.1, (hagree c).2.2.2]
    obtain ⟨f0, f1, f2⟩ := Cert.Finite.real_of_pre _ _ _ _ (hpre c)
    exact Cert.Bridge.result_eq m c f0 f1 f2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
